-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x2048 .f32) (main_arg1 : FVec F S2048x2048 .f32) (main_arg2 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  transposes_S2048x2048_p1_0_S2048x2048 : S2048x2048.Transposes [1, 0] S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S16384x2048.size a
  hwx0_3 : ∀ i : grid0.Coords, EltTy.bits .f32 = 32 ∨ (Rect.block (s := S16384x2048) S256x2048.size (cc0_transform_3 i) (hinb0_3 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S16384x2048, .f32⟩
  | .hbm, ⟨5, _⟩ => ⟨S16384x2048, .i1⟩
  | .hbm, ⟨6, _⟩ => ⟨S_, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S2048x2048, .f32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_cst_3 : Ref sig .tc := ⟨.hbm, 14, rfl⟩
abbrev main_cst_4 : Ref sig .tc := ⟨.hbm, 15, rfl⟩
abbrev main_call1_v0 : Ref sig .tc := ⟨.hbm, 16, rfl⟩
abbrev main_call1_v1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  bcast_S_S2048x2048 : S_.BroadcastsInDim S2048x2048 (![] : Fin 0 → Fin S2048x2048.rank)
  transposes_S2048x2048_S2048x2048_1_0 : S2048x2048.Transposes [1, 0] S2048x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.BinLinear.lean ====
/-
  The mathematics both programs compute, stated once and away from either program.

  A binarized linear layer: every entry of the input matrix `x` (16384 × 2048) and of the weight matrix
  `w` (2048 × 2048) is replaced by its sign with zero counted as negative, `bin z = 1` if `0 < z` and `-1`
  otherwise, and the result at row `r`, column `n` is

      (∑ k < 2048, bin (x r k) · bin (w n k)) + b n

  — the product of the binarized input with the TRANSPOSE of the binarized weights, plus the bias row.
  Over the extended reals the entries ±1 are finite, so nothing here needs the inputs to be finite:
  both programs will be shown to be literally this function.
-/
import Idealize.ShloMosaic.PureOps.Ideal.Laws
import Idealize.ShloMosaic.Lib.ValueIdx
import Idealize.ShloMosaic.Lib.IdealHost

noncomputable section

open scoped BigOperators

namespace Cert.BinLinear

open Idealize.ShloMosaic Idealize.ShloMosaic.ValueIdx

/-- The sign of an extended real with zero (and everything below it) sent to `-1`: the comparison
    "strictly above zero" choosing between the two constants. -/
def bin (z : EReal) : EReal := Scalar.select (Ideal.cmp .ogt z 0) 1 (-1)

/-- `bin` in words: `1` above zero, `-1` elsewhere. -/
theorem bin_eq (z : EReal) : bin z = if 0 < z then 1 else -1 := by
  unfold bin Scalar.select Ideal.cmp
  by_cases h : 0 < z <;> simp [h]

/-- The single-precision pattern of `-1.0` denotes the extended real `-1`. -/
theorem ofBits_neg_one_f32 : Ideal.ofBits .f32 0xBF800000#32 = -1 := by
  rw [show (-1 : EReal) = ((-(1 : ℝ)) : EReal) by rw [EReal.coe_one]]
  simp [Ideal.ofBits, Ideal.ieee, -EReal.coe_mul, -EReal.coe_neg]; norm_num

/-- The half-width pattern of `-1.0` denotes the same `-1`. -/
theorem ofBits_neg_one_bf16' : Ideal.ofBits .bf16 0xBF80#16 = -1 := by
  rw [Ideal.ofBits_neg_one_bf16, EReal.coe_one]

/-- The entry at row `r`, column `n`: the binarized row of `x` against the binarized ROW `n` of `w`
    (a column of its transpose), plus the bias at `n`. -/
def entry (x : (⟨2, ![16384, 2048]⟩ : Shape).Idx → EReal) (w : (⟨2, ![2048, 2048]⟩ : Shape).Idx → EReal)
    (b : (⟨1, ![2048]⟩ : Shape).Idx → EReal) (r : Fin 16384) (n : Fin 2048) : EReal :=
  (∑ k : Fin 2048, bin (x (ix2 r k)) * bin (w (ix2 n k))) + b (ix1 n)

/-- The whole result as one function of the three arrays, index by index. -/
def result (x : (⟨2, ![16384, 2048]⟩ : Shape).Idx → EReal) (w : (⟨2, ![2048, 2048]⟩ : Shape).Idx → EReal)
    (b : (⟨1, ![2048]⟩ : Shape).Idx → EReal) : (⟨2, ![16384, 2048]⟩ : Shape).Idx → EReal :=
  fun i => entry x w b (i 0) (i 1)

end Cert.BinLinear

end
-- ==== Proof.KernelEntry.lean ====
/-
  What the kernel's body computes for one block, read at an index of the block.

  The body loads a 256-row block of `x`, the whole of `w` and the bias row; takes the sign of every entry of both
  matrices (a comparison with zero choosing between 1 and -1, spelt in half width, which over the extended reals
  is the same ±1); transposes the binarized weights; multiplies the binarized block by that transpose into a
  zero accumulator; and adds the bias row broadcast down the 256 rows. At (p, q) of the block that is

      (∑ k < 2048, sign (x p k) · sign (w q k)) + bias 0 q.

  The matrix product at an output index is a sum over the contraction axis; the transpose moves the
  contraction index to the weights' second coordinate.
-/
import proofs.«108179_j19516331393234_1_alg».proof.Proof.Gen.KernelIdeal.Skeleton
import proofs.«108179_j19516331393234_1_alg».proof.Proof.BinLinear
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen
open Idealize.ShloMosaic Idealize.ShloMosaic.ValueIdx Cert.BinLinear

/-! ## The operand indices of the block product -/

theorem lhs_axis0 (j : S256x2048.Idx) (q : dot_S256x2048_S2048x2048_S256x2048_1_0_0_1_n_n.contr.Idx) :
    (dot_S256x2048_S2048x2048_S256x2048_1_0_0_1_n_n.lhsIdx j q 0).val = (j 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhs_axis1 (j : S256x2048.Idx) (q : dot_S256x2048_S2048x2048_S256x2048_1_0_0_1_n_n.contr.Idx) :
    (dot_S256x2048_S2048x2048_S256x2048_1_0_0_1_n_n.lhsIdx j q 1).val = (q ⟨0, by decide⟩).val :=
  dot_S256x2048_S2048x2048_S256x2048_1_0_0_1_n_n.lhsIdx_val_of_single rfl j q
theorem rhs_axis0 (j : S256x2048.Idx) (q : dot_S256x2048_S2048x2048_S256x2048_1_0_0_1_n_n.contr.Idx) :
    (dot_S256x2048_S2048x2048_S256x2048_1_0_0_1_n_n.rhsIdx j q 0).val = (q ⟨0, by decide⟩).val :=
  dot_S256x2048_S2048x2048_S256x2048_1_0_0_1_n_n.rhsIdx_val_of_single rfl j q
theorem rhs_axis1 (j : S256x2048.Idx) (q : dot_S256x2048_S2048x2048_S256x2048_1_0_0_1_n_n.contr.Idx) :
    (dot_S256x2048_S2048x2048_S256x2048_1_0_0_1_n_n.rhsIdx j q 1).val = (j 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- The block product into a zero accumulator, at an output index: the sum over the contraction index of the left
    operand's row entry times the right operand's column entry. -/
theorem product_apply (A : FVec Ideal S256x2048 .bf16) (B : FVec Ideal S2048x2048 .bf16) (p : Fin 256) (q : Fin 2048) :
    matmul dot_S256x2048_S2048x2048_S256x2048_1_0_0_1_n_n none A B (constant S256x2048 .f32 0x00000000#32) (ix2 p q)
      = ∑ k : Fin 2048, A (ix2 p k) * B (ix2 k q) := by
  simp only [matmul]
  rw [Ideal.matmul_constant_zero_apply, ← Equiv.sum_comp (ValueIdx.contrEquiv1 dot_S256x2048_S2048x2048_S256x2048_1_0_0_1_n_n 2048 rfl rfl).symm]
  refine Finset.sum_congr rfl fun k _ => ?_
  have hk := ValueIdx.contrEquiv1_symm_val dot_S256x2048_S2048x2048_S256x2048_1_0_0_1_n_n 2048 rfl rfl k
  have el : dot_S256x2048_S2048x2048_S256x2048_1_0_0_1_n_n.lhsIdx (ix2 p q) ((ValueIdx.contrEquiv1 dot_S256x2048_S2048x2048_S256x2048_1_0_0_1_n_n 2048 rfl rfl).symm k) = ix2 p k := funext fun a => Fin.ext (by
    match a with
    | ⟨0, _⟩ => exact lhs_axis0 _ _
    | ⟨1, _⟩ => exact (lhs_axis1 _ _).trans hk)
  have er : dot_S256x2048_S2048x2048_S256x2048_1_0_0_1_n_n.rhsIdx (ix2 p q) ((ValueIdx.contrEquiv1 dot_S256x2048_S2048x2048_S256x2048_1_0_0_1_n_n 2048 rfl rfl).symm k) = ix2 k q := funext fun a => Fin.ext (by
    match a with
    | ⟨0, _⟩ => exact (rhs_axis0 _ _).trans hk
    | ⟨1, _⟩ => exact rhs_axis1 _ _)
  rw [el, er]

/-! ## The signs -/

/-- Comparing with a splat of zero and selecting between splats of 1 and -1 (half width) is, entry by entry, the sign. -/
theorem signs_apply (S : Shape) (v : FVec Ideal S .f32) (i : S.Idx) :
    (select (cmpf .ogt v (broadcast S (Scalar.ofBits .f32 0x00000000#32))) (broadcast S (Scalar.ofBits (F := Ideal) .bf16 0x3F80#16))
      (broadcast S (Scalar.ofBits (F := Ideal) .bf16 0xBF80#16)) : FVec Ideal S .bf16) i = bin (v i) := by
  show Scalar.select (FloatOps.cmpf .ogt (v i) (FloatOps.ofBits .f32 0x00000000#32)) (FloatOps.ofBits (F := Ideal) .bf16 0x3F80#16)
    (FloatOps.ofBits (F := Ideal) .bf16 0xBF80#16) = _
  rw [Ideal.ofBits_def, Ideal.ofBits_def, Ideal.ofBits_def, Ideal.ofBits_zero_f32, Ideal.ofBits_one_bf16,
    ofBits_neg_one_bf16', Ideal.cmpf_def]
  rfl

/-! ## The bias row -/

/-- The bias row, cast to its own shape and broadcast down the rows, reads the row at the column. -/
theorem bias_apply (x2 : Vec Ideal S1x2048 .f32) (p : Fin 256) (q : Fin 2048) :
    (broadcastTo S256x2048 (shapeCast S1x2048 x2 shapeCasts_S1x2048_S1x2048) broadcasts_S1x2048_S256x2048 : FVec Ideal S256x2048 .f32) (ix2 p q)
      = x2 (ix2 0 q) := by
  rw [shapeCast_self]
  exact broadcastTo_apply x2 broadcasts_S1x2048_S256x2048 (ix2 p q) (ix2 0 q) (fun a => match a with
    | ⟨0, _⟩ => by show 0 = if (1 : Nat) = 1 then 0 else _; rw [if_pos rfl]
    | ⟨1, _⟩ => by show q.val = if (2048 : Nat) = 1 then 0 else q.val; rw [if_neg (by decide)])

/-! ## The body's stored value at an index -/

/-- The block the body stores, at (p, q): the binarized row p of the loaded block of `x` against the binarized
    row q of `w`, plus the bias at column q. -/
theorem stored_apply (x0 : Vec Ideal S256x2048 .f32) (x1 : Vec Ideal S2048x2048 .f32) (x2 : Vec Ideal S1x2048 .f32)
    (p : Fin 256) (q : Fin 2048) :
    k0_pay1 (F := Ideal) x0 x1 x2 (ix2 p q)
      = (∑ k : Fin 2048, bin (x0 (ix2 p k)) * bin (x1 (ix2 q k))) + x2 (ix2 0 q) := by
  unfold k0_pay1
  dsimp only
  rw [addf_apply, product_apply, bias_apply]
  congr 1
  refine Finset.sum_congr rfl fun k _ => ?_
  rw [signs_apply, transpose_apply [1, 0] _ transposes_S2048x2048_p1_0_S2048x2048 (ix2 k q) (ix2 q k) (fun b => match b with
    | ⟨0, _⟩ => rfl
    | ⟨1, _⟩ => rfl), signs_apply]

end Cert.KernelIdeal.Block

end
-- ==== Proof.KernelWhole.lean ====
/-
  From the blocks the grid points write back to the whole result array.

  The grid has 64 points. Point t stages rows 256·t … 256·t + 255 of `x` (all 2048 columns), the whole weight
  matrix and the bias row (the argument reshaped to one row before the launch), and writes back rows
  256·t … 256·t + 255 of the result. Row p of the block at point t is row 256·t + p of the array, so what a point
  writes back is the corresponding block of the binarized linear layer of the ARGUMENT arrays; the 64 blocks tile
  the 16384 rows (row r lies in block r / 256), so the array ends as that function everywhere.
-/
import proofs.«108179_j19516331393234_1_alg».proof.Proof.Gen.KernelIdeal.Value
import proofs.«108179_j19516331393234_1_alg».proof.Proof.KernelEntry
import Idealize.ShloMosaic.Lib.Pipeline.Value
import Idealize.ShloMosaic.Lib.StableHlo.Run

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.BinLinear Cert.KernelIdeal.Block
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## A block's entry is the array's entry -/

/-- If row p of the loaded block of `x` is row `i 0` of the array `X`, row q of the loaded weights is row `i 1` of
    `W`, and the bias row at q is `B` at `i 1`, then what the body stores at (p, q) is the layer's value at `i`. -/
theorem block_entry (X : S16384x2048.Idx → EReal) (W : S2048x2048.Idx → EReal) (B : S2048.Idx → EReal)
    (x0 : Vec Ideal S256x2048 .f32) (x1 : Vec Ideal S2048x2048 .f32) (x2 : Vec Ideal S1x2048 .f32)
    (i : S16384x2048.Idx) (p : Fin 256) (q : Fin 2048)
    (h0 : ∀ k : Fin 2048, x0 (ix2 p k) = X (ix2 (i 0) k)) (h1 : ∀ k : Fin 2048, x1 (ix2 q k) = W (ix2 (i 1) k))
    (h2 : x2 (ix2 0 q) = B (ix1 (i 1))) :
    k0_pay1 (F := Ideal) x0 x1 x2 (ix2 p q) = result X W B i := by
  rw [stored_apply]
  unfold result entry
  rw [h2]
  congr 1
  exact Finset.sum_congr rfl fun k _ => by rw [h0 k, h1 k]

/-! ## The bias row as the region finds it -/

/-- Before the launch the bias argument is reshaped to one row: that is what the third window stages. -/
theorem bias_row (c : Dev nD) :
    (V m c main_v0 : S1x2048.Idx → EReal) = shapeCast S1x2048 (m ((c : Thread nD τ).loc main_arg2)) shapeCasts_S2048_S1x2048 := by
  dsimp only [Gen.V, Gen.hostOps0]; after_results; rfl

/-- The one row at column q is the bias at q (same position in row-major order). -/
theorem bias_row_apply (c : Dev nD) (q : Fin 2048) :
    (V m c main_v0 : S1x2048.Idx → EReal) (ix2 0 q) = (m ((c : Thread nD τ).loc main_arg2)) (ix1 q) := by
  rw [bias_row]
  exact shapeCast_apply _ shapeCasts_S2048_S1x2048 (ix2 0 q) (ix1 q) (by
    rw [Shape.rowMajor_val_one, Shape.rowMajor_val_two]
    show q.val = 0 * 2048 + q.val
    omega)

/-! ## The index maps, decided over the 64 points -/

/-- The input block of `x` moves with the output block along the rows; the weights and the bias stay at block 0;
    the output's row-block index is the point itself. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## What a point writes back -/

/-- Point t writes back block t of the binarized linear layer of the argument arrays. -/
theorem flushed_eq (c : Dev nD) (t : Fin cfg0.N) :
    (dats m 0 c).flushed 3 t = ((cfg0.win 3).blk t).view.read (Elt Ideal) (result (m ((c : Thread nD τ).loc main_arg0)) (m ((c : Thread nD τ).loc main_arg1)) (m ((c : Thread nD τ).loc main_arg2))) := by
  rw [Value.flushed3]
  unfold out0_3
  rw [View.canon_unit_zero origin]
  simp only [View.ld_unit_zero (S := S256x2048) origin, View.ld_unit_zero (S := S2048x2048) origin,
    View.ld_unit_zero (S := S1x2048) origin]
  obtain ⟨e00, e01, e10, e11, e20, e21, e30, e31⟩ := index_facts t
  funext j
  obtain ⟨p, q, rfl⟩ : ∃ (p : Fin 256) (q : Fin 2048), j = ix2 p q := ⟨j 0, j 1, eq_ix2 j⟩
  show k0_pay1 (F := Ideal) (iblk m c 0 t) (iblk m c 1 t) (iblk m c 2 t) (ix2 p q)
    = result (m ((c : Thread nD τ).loc main_arg0)) (m ((c : Thread nD τ).loc main_arg1)) (m ((c : Thread nD τ).loc main_arg2)) (((cfg0.win 3).blk t).view.emb (ix2 p q))
  refine block_entry (m ((c : Thread nD τ).loc main_arg0)) (m ((c : Thread nD τ).loc main_arg1)) (m ((c : Thread nD τ).loc main_arg2))
    (iblk m c 0 t) (iblk m c 1 t) (iblk m c 2 t) (((cfg0.win 3).blk t).view.emb (ix2 p q)) p q (fun k => ?_) (fun k => ?_) ?_
  · -- row p of the staged block of x is row 256·t + p of x
    show V m c main_arg0 (((cfg0.win 0).blk t).view.emb (ix2 p k)) = _
    rw [V_main_arg0 m c]
    refine congrArg _ (funext fun a => Fin.ext ?_)
    match a with
    | ⟨0, _⟩ => show win0_0.index t (0 : Fin 2) * 256 + 1 * p.val = win0_3.index t (0 : Fin 2) * 256 + 1 * p.val; omega
    | ⟨1, _⟩ => show win0_0.index t (1 : Fin 2) * 2048 + 1 * k.val = k.val; omega
  · -- the weights are staged whole: row q is row q
    show V m c main_arg1 (((cfg0.win 1).blk t).view.emb (ix2 q k)) = _
    rw [V_main_arg1 m c]
    refine congrArg _ (funext fun a => Fin.ext ?_)
    match a with
    | ⟨0, _⟩ => show win0_1.index t (0 : Fin 2) * 2048 + 1 * q.val = win0_3.index t (1 : Fin 2) * 2048 + 1 * q.val; omega
    | ⟨1, _⟩ => show win0_1.index t (1 : Fin 2) * 2048 + 1 * k.val = k.val; omega
  · -- the bias row is staged whole
    show V m c main_v0 (((cfg0.win 2).blk t).view.emb (ix2 0 q)) = _
    have e : ((cfg0.win 2).blk t).view.emb (ix2 0 q) = ix2 0 q := funext fun a => Fin.ext (by
      match a with
      | ⟨0, _⟩ => show win0_2.index t (0 : Fin 2) * 1 + 1 * 0 = 0; omega
      | ⟨1, _⟩ => show win0_2.index t (1 : Fin 2) * 2048 + 1 * q.val = q.val; omega)
    rw [e, bias_row_apply]
    refine congrArg _ (funext fun a => Fin.ext ?_)
    match a with
    | ⟨0, _⟩ => show q.val = win0_3.index t (1 : Fin 2) * 2048 + 1 * q.val; omega

/-! ## The blocks tile the array -/

/-- An index is in point t's block iff each coordinate is in the block's range. -/
theorem mem_block (t : Fin cfg0.N) (i : S16384x2048.Idx) :
    i ∈ ((cfg0.win 3).blk t).view.set ↔ ∀ a : Fin 2, win0_3.index t a * S256x2048.size a ≤ (i a).val
      ∧ (i a).val < win0_3.index t a * S256x2048.size a + S256x2048.size a := by
  show i ∈ ((View.whole main_v1).slice (win0_3.rect t)).set ↔ _
  rw [View.set_slice_whole, Rect.mem_set_unit]
  exact Iff.rfl

/-- Every index of the result lies in the block of the point "its row divided by 256". -/
theorem covered (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  have hlt : (i 0).val / 256 < cfg0.N := by
    show (i 0).val / 256 < grid0.N
    rw [N_0]; omega
  obtain ⟨t, ht⟩ : ∃ t : Fin cfg0.N, t.val = (i 0).val / 256 := ⟨⟨(i 0).val / 256, hlt⟩, rfl⟩
  obtain ⟨-, -, -, -, -, -, e30, e31⟩ := index_facts t
  refine ⟨t, flush0_3 t, ?_⟩
  rw [mem_block]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 2048 ≤ (i 1).val ∧ (i 1).val < win0_3.index t (1 : Fin 2) * 2048 + 2048
    omega

/-! ## The array after the run, and the run -/

/-- After the last point the result array is the binarized linear layer of the argument arrays. -/
theorem final (c : Dev nD) : (dats m 0 c).arrAt 3 cfg0.N = (result (m ((c : Thread nD τ).loc main_arg0)) (m ((c : Thread nD τ).loc main_arg1)) (m ((c : Thread nD τ).loc main_arg2))) :=
  (dats m 0 c).arrAt_eq_of_cover 3 _ (fun t _ => flushed_eq m c t) covered

/-- Every weakly fair execution of the kernel's program terminates with the result array at the layer's value of
    the arguments, and the arguments unchanged. -/
theorem run : θ_run defs (onTc (τ := τ) (main (F := Ideal))) ⟨m, fun _ => 0, ρ⟩ fun r => ∀ c : Dev nD,
      r.2.mem ((c : Thread nD τ).loc main_v1) = (result (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  The reference, read one operation at a time, IS the binarized linear layer.

  Its program compares each array with a splat of zero, selects between splats of the constants 1.0 and -1.0
  (so each entry becomes its sign, zero counted as negative), transposes the binarized weights, contracts the
  binarized input's column axis with the transposed weights' row axis, and adds the bias broadcast along the
  rows. Read at an index (r, n) this is the sum over k of sign(x r k) · sign(w n k), plus b n: the transpose only
  swaps which coordinate of `w` the contraction index sits on.
-/
import proofs.«108179_j19516331393234_1_alg».proof.Proof.Gen.ReferenceIdeal.Read
import proofs.«108179_j19516331393234_1_alg».proof.Proof.BinLinear

noncomputable section

open scoped BigOperators

namespace Cert.ReferenceIdeal.RefValue

open Cert.ReferenceIdeal Cert.ReferenceIdeal.Gen Cert.ReferenceIdeal.Read
open Idealize.ShloMosaic Idealize.ShloMosaic.ValueIdx Cert.BinLinear

/-- The selected input at an index is the sign of the input there. -/
theorem sign_input (x0 : (⟨S16384x2048, .f32⟩ : BufTy).Contents (Elt Ideal)) (j : S16384x2048.Idx) :
    val_main_v2 (F := Ideal) x0 j = bin (x0 j) := by
  rw [val_main_v2_apply, val_main_v1_apply, val_main_v0_apply, val_main_cst_apply, val_main_call0_v0_apply,
    val_main_cst_0_apply, val_main_call0_v1_apply, val_main_cst_1_apply]
  rw [Ideal.ofBits_def, Ideal.ofBits_def, Ideal.ofBits_def, Ideal.ofBits_zero_f32, Ideal.ofBits_one_f32,
    ofBits_neg_one_f32, Ideal.cmpf_def]
  rfl

/-- The selected weights at an index are the sign of the weights there. -/
theorem sign_weight (x1 : (⟨S2048x2048, .f32⟩ : BufTy).Contents (Elt Ideal)) (j : S2048x2048.Idx) :
    val_main_v5 (F := Ideal) x1 j = bin (x1 j) := by
  rw [val_main_v5_apply, val_main_v4_apply, val_main_v3_apply, val_main_cst_2_apply, val_main_call1_v0_apply,
    val_main_cst_3_apply, val_main_call1_v1_apply, val_main_cst_4_apply]
  rw [Ideal.ofBits_def, Ideal.ofBits_def, Ideal.ofBits_def, Ideal.ofBits_zero_f32, Ideal.ofBits_one_f32,
    ofBits_neg_one_f32, Ideal.cmpf_def]
  rfl

/-- The reference's last stage is the binarized linear layer of its three arguments. -/
theorem result_eq (x0 : (⟨S16384x2048, .f32⟩ : BufTy).Contents (Elt Ideal)) (x1 : (⟨S2048x2048, .f32⟩ : BufTy).Contents (Elt Ideal))
    (x2 : (⟨S2048, .f32⟩ : BufTy).Contents (Elt Ideal)) :
    val_main_v10 (F := Ideal) x0 x1 x2 = result x0 x1 x2 := by
  funext i
  rw [val_main_v10_apply, val_main_v7_apply, val_main_v9_apply, val_main_v8_apply]
  show (∑ k : Fin 2048, _) + _ = (∑ k : Fin 2048, _) + _
  congr 1
  · refine Finset.sum_congr rfl fun k _ => ?_
    rw [sign_input, val_main_v6_apply, sign_weight]
    -- the left factor sits at (r, k); the transposed right factor at (k, n) is the weight at (n, k)
    have e1 : lidx_main_v7 i k = ix2 (i 0) k :=
      funext fun a => Fin.ext (by match a with | ⟨0, _⟩ => rfl | ⟨1, _⟩ => rfl)
    have e2 : idx_main_v6 (ridx_main_v7 i k) = ix2 (i 1) k :=
      funext fun a => Fin.ext (by match a with | ⟨0, _⟩ => rfl | ⟨1, _⟩ => rfl)
    rw [e1, e2]
    rfl
  · -- the bias row: broadcast to one row, then along the rows, reads the bias at the column
    refine congrArg x2 (funext fun a => Fin.ext ?_)
    match a with | ⟨0, _⟩ => rfl

end Cert.ReferenceIdeal.RefValue

end
-- ==== Proof.lean ====
/-
  A binarized linear layer: the result at row r, column n is

      (∑ k < 2048, sign (x r k) · sign (w n k)) + b n,        sign z = 1 if 0 < z, -1 otherwise,

  the product of the binarized input with the transpose of the binarized weights, plus the bias.

  The kernel computes it 256 rows at a time: each grid point takes the signs of its block of `x` and of the whole
  of `w` (in half width, where ±1 are exact), multiplies the block by the transposed sign matrix into a zero
  accumulator and adds the bias row; the 64 blocks tile the rows. The reference takes the same signs in single
  precision, transposes, contracts and adds the broadcast bias. Over the extended reals a matrix product at an
  index is the sum over the contraction index whatever the tiling, the two spellings of ±1 are the same numbers,
  and the transpose only moves the contraction index to the weights' second coordinate — so both programs end
  with literally the same function of their arguments (Proof/BinLinear.lean states it; Proof/KernelEntry.lean and
  Proof/KernelWhole.lean read the kernel down to it, Proof/RefValue.lean the reference). No law used needs the
  inputs to be finite. The idealization rewrote nothing, so the kernel's idealized text is its own text.
-/
import proofs.«108179_j19516331393234_1_alg».proof.Defs
import proofs.«108179_j19516331393234_1_alg».proof.Proof.Gen.Kernel
import proofs.«108179_j19516331393234_1_alg».proof.Proof.Gen.Kernel.Skeleton
import proofs.«108179_j19516331393234_1_alg».proof.Proof.Gen.Kernel.Launch
import proofs.«108179_j19516331393234_1_alg».proof.Proof.Gen.Kernel.Points
import proofs.«108179_j19516331393234_1_alg».proof.Proof.Gen.Kernel.Frame
import proofs.«108179_j19516331393234_1_alg».proof.Proof.Gen.KernelIdeal
import proofs.«108179_j19516331393234_1_alg».proof.Proof.Gen.KernelIdeal.Skeleton
import proofs.«108179_j19516331393234_1_alg».proof.Proof.Gen.KernelIdeal.Launch
import proofs.«108179_j19516331393234_1_alg».proof.Proof.Gen.KernelIdeal.Points
import proofs.«108179_j19516331393234_1_alg».proof.Proof.Gen.KernelIdeal.Frame
import proofs.«108179_j19516331393234_1_alg».proof.Proof.Gen.ReferenceIdeal
import proofs.«108179_j19516331393234_1_alg».proof.Proof.Gen.Pre_finite_inputs
import proofs.«108179_j19516331393234_1_alg».proof.Proof.Gen.KernelIdeal.Value
import proofs.«108179_j19516331393234_1_alg».proof.Proof.Gen.ReferenceIdeal.Run
import proofs.«108179_j19516331393234_1_alg».proof.Proof.Gen.ReferenceIdeal.Read
import proofs.«108179_j19516331393234_1_alg».proof.Proof.BinLinear
import proofs.«108179_j19516331393234_1_alg».proof.Proof.KernelEntry
import proofs.«108179_j19516331393234_1_alg».proof.Proof.KernelWhole
import proofs.«108179_j19516331393234_1_alg».proof.Proof.RefValue
import Idealize.ShloMosaic.Adequacy
import Idealize.ShloMosaic.Init

noncomputable section

namespace Cert.Proof

open Idealize.ShloMosaic Idealize.ShloMosaic.TcCoe Idealize.SL.Sem

/-- The kernel's program terminates without a fault and leaves its arguments as they were. -/
theorem frame_kernel : Cert.frame_Kernel := fun m ρ _ => Cert.Kernel.Gen.frame m ρ

/-- The same of its idealized text. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from arguments that agree, end with the binarized linear layer of those arguments. -/
theorem algebraic : Cert.algebraic_KernelIdeal_ReferenceIdeal := by
  intro m ρ m' ρ' _ hagree
  refine ⟨fun c => Cert.BinLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v10_eq _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
